-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S32000x256 : Shape := ⟨2, ![32000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S32000x256 : S_.BroadcastsInDim S32000x256 (![] : Fin 0 → Fin S32000x256.rank)
  reducesTo_S32000x256_S_d0_1 : S32000x256.ReducesTo [0, 1] S_

variable [Facts]

def fn {F : FTy → Type} [FloatOps F] (main_arg0 : FVec F S4096x256 .f32) (main_arg1 : IVec S4096 32) (main_arg2 : FVec F S32000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S32000x256 .f32 := Host.absf main_arg2
  let main_cst_0 : FVec F S_ .f32 := constant S_ .f32 0x7F800000#32
  let main_v5 : FVec F S32000x256 .f32 := broadcastInDim S32000x256 ![] bcast_S_S32000x256 main_cst_0
  let main_v6 : IVec S32000x256 1 := cmpf .olt main_v4 main_v5
  let main_c_1 : IVec S_ 1 := constantI S_ 1 1#1
  let main_v7 : IVec S_ 1 := (fun x v => Host.reduce IntOp.andi x v reducesTo_S32000x256_S_d0_1 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S32000x256 : Shape := ⟨2, ![32000, 256]⟩
abbrev S4096x1 : Shape := ⟨2, ![4096, 1]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1 : Shape := ⟨1, ![1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S32000x256, .f32⟩
  | .hbm, ⟨3, _⟩ => ⟨S4096x1, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x1, .i32⟩
  | .local _ .vmem, ⟨4, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  reduces_S4096x256_S4096 : S4096x256.Reduces [1] S4096
  reduces_S256x256_S256 : S256x256.Reduces [1] S256
  shapeCasts_S256_S256x1 : S256.ShapeCasts S256x1
  transposes_S256x1_p1_0_S1x256 : S256x1.Transposes [1, 0] S1x256
  bitsLt_bf16_f32 : FTy.bits .bf16 < FTy.bits .f32
  broadcasts_S4096x1_S4096x256 : S4096x1.Broadcasts S4096x256
  broadcasts_S1x256_S4096x256 : S1x256.Broadcasts S4096x256
  iota_S1x256_d1_w32 : S1x256.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32000x256.size a
  hwx0_0 : ∀ i : grid0.Coords, EltTy.bits .f32 = 32 ∨ (Rect.block (s := S32000x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .i32 = 32 ∨ (Rect.block (s := S4096x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg2) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S32000x256 : Shape := ⟨2, ![32000, 256]⟩
abbrev S_ : Shape := ⟨0, ![]⟩
abbrev S4096x1 : Shape := ⟨2, ![4096, 1]⟩
abbrev S32000 : Shape := ⟨1, ![32000]⟩
abbrev S1x32000 : Shape := ⟨2, ![1, 32000]⟩
abbrev S4096x32000 : Shape := ⟨2, ![4096, 32000]⟩

abbrev nBuf : Space → Nat
  | .hbm => 41
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S32000x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S32000x256, .f32⟩
  | .hbm, ⟨8, _⟩ => ⟨S_, .f32⟩
  | .hbm, ⟨9, _⟩ => ⟨S32000, .f32⟩
  | .hbm, ⟨10, _⟩ => ⟨S1x32000, .f32⟩
  | .hbm, ⟨11, _⟩ => ⟨S4096x32000, .f32⟩
  | .hbm, ⟨12, _⟩ => ⟨S4096x32000, .f32⟩
  | .hbm, ⟨13, _⟩ => ⟨S4096x32000, .f32⟩
  | .hbm, ⟨14, _⟩ => ⟨S4096x32000, .f32⟩
  | .hbm, ⟨15, _⟩ => ⟨S_, .f32⟩
  | .hbm, ⟨16, _⟩ => ⟨S4096x32000, .f32⟩
  | .hbm, ⟨17, _⟩ => ⟨S4096x32000, .f32⟩
  | .hbm, ⟨18, _⟩ => ⟨S4096x32000, .f32⟩
  | .hbm, ⟨19, _⟩ => ⟨S32000, .i32⟩
  | .hbm, ⟨20, _⟩ => ⟨S4096x1, .i32⟩
  | .hbm, ⟨21, _⟩ => ⟨S1x32000, .i32⟩
  | .hbm, ⟨22, _⟩ => ⟨S4096x32000, .i32⟩
  | .hbm, ⟨23, _⟩ => ⟨S4096x32000, .i32⟩
  | .hbm, ⟨24, _⟩ => ⟨S4096x32000, .i1⟩
  | .hbm, ⟨25, _⟩ => ⟨S4096x32000, .f32⟩
  | .hbm, ⟨26, _⟩ => ⟨S4096x32000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x32000, .f32⟩
  | .hbm, ⟨31, _⟩ => ⟨S4096x32000, .f32⟩
  | .hbm, ⟨32, _⟩ => ⟨S_, .f32⟩
  | .hbm, ⟨33, _⟩ => ⟨S4096x32000, .f32⟩
  | .hbm, ⟨34, _⟩ => ⟨S4096x32000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S32000x256_S32000_d1 : S32000x256.ReducesTo [1] S32000
  bcast_S32000_S1x32000_1 : S32000.BroadcastsInDim S1x32000 (![1] : Fin 1 → Fin S1x32000.rank)
  bcast_S4096x1_S4096x32000_0_1 : S4096x1.BroadcastsInDim S4096x32000 (![0, 1] : Fin 2 → Fin S4096x32000.rank)
  bcast_S1x32000_S4096x32000_0_1 : S1x32000.BroadcastsInDim S4096x32000 (![0, 1] : Fin 2 → Fin S4096x32000.rank)
  bcast_S_S4096x32000 : S_.BroadcastsInDim S4096x32000 (![] : Fin 0 → Fin S4096x32000.rank)
  reducesTo_S4096x32000_S_d0_1 : S4096x32000.ReducesTo [0, 1] S_
  dot_S4096x256_S32000x256_S4096x32000_1_1_0_0_n_n_wf : DotDims.WF S4096x256 S32000x256 S4096x32000 [1] [1] [0] [0] [] []

variable [Facts₀]

def dot_S4096x256_S32000x256_S4096x32000_1_1_0_0_n_n : DotDims S4096x256 S32000x256 S4096x32000 where
  lhsContracting := [1]
  rhsContracting := [1]
  lhsNonContracting := [0]
  rhsNonContracting := [0]
  lhsBatch := []
  rhsBatch := []
  wf := dot_S4096x256_S32000x256_S4096x32000_1_1_0_0_n_n_wf

class Facts : Prop extends Facts₀ where

variable [Facts]
-- ==== Proof.Spec.lean ====
/-
  The center loss as ONE function of the three argument arrays, over the extended reals.

  For a batch row `b` and a class `k` the squared distance between embedding `b` and center `k` is
  `‖e_b‖² + ‖c_k‖² − 2·⟨e_b, c_k⟩`, each of the three a sum over the 256 features. The loss keeps, of the
  4096 × 32000 distances, the one whose class is the row's label (every other entry is replaced by 0),
  clamps EVERY entry between the two bounds (so a dropped entry still contributes the lower bound), and adds
  them all up; the mean over the batch and the scale are the same two scalar operations on both sides
  (`meanScale`: divide by 4096.0, multiply by 1.0), applied to that sum (`loss`).

  The classes come in 125 tiles of 256: class `256·t + j` is entry `j` of tile `t`. Adding the entries tile by
  tile, rows inside a tile, classes inside a row, reaches every pair (b, k) exactly once, and addition on the
  extended reals is commutative and associative, so the tile-by-tile sum is the whole sum (`sum_tiles`).
-/
import Idealize.ShloMosaic.PureOps.Ideal
import Idealize.ShloMosaic.Lib.ValueIdx

noncomputable section

open scoped BigOperators

namespace Cert.CenterLoss

open Idealize.ShloMosaic Idealize.ShloMosaic.ValueIdx

/-- The lower clamp bound, the f32 nearest 1e-12. -/
abbrev lo : EReal := Ideal.ofBits .f32 0x2B8CBCCC#32
/-- The upper clamp bound, the f32 nearest 1e12. -/
abbrev hi : EReal := Ideal.ofBits .f32 0x5368D4A5#32
/-- The factor of the inner product, the f32 2.0. -/
abbrev two : EReal := Ideal.ofBits .f32 0x40000000#32

/-- The squared distance between embedding row `b` and center row `k`, expanded:
    `Σ_d e[b,d]² + Σ_d c[k,d]² − 2 · Σ_d e[b,d]·c[k,d]`. -/
def dist (e : (⟨2, ![4096, 256]⟩ : Shape).Idx → EReal) (cn : (⟨2, ![32000, 256]⟩ : Shape).Idx → EReal)
    (b : Fin 4096) (k : Fin 32000) : EReal :=
  ((∑ d : Fin 256, e (ix2 b d) * e (ix2 b d)) + ∑ d : Fin 256, cn (ix2 k d) * cn (ix2 k d))
    - two * ∑ d : Fin 256, e (ix2 b d) * cn (ix2 k d)

/-- Entry (b, k) of the loss: the distance where `k` is row `b`'s label and 0 elsewhere, clamped to [lo, hi]. -/
def term (e : (⟨2, ![4096, 256]⟩ : Shape).Idx → EReal) (l : (⟨1, ![4096]⟩ : Shape).Idx → BitVec 32)
    (cn : (⟨2, ![32000, 256]⟩ : Shape).Idx → EReal) (b : Fin 4096) (k : Fin 32000) : EReal :=
  min hi (max lo (if l (ix1 b) = BitVec.ofNat 32 k.val then dist e cn b k else 0))

/-- The sum of all 4096 × 32000 entries. -/
def total (e : (⟨2, ![4096, 256]⟩ : Shape).Idx → EReal) (l : (⟨1, ![4096]⟩ : Shape).Idx → BitVec 32)
    (cn : (⟨2, ![32000, 256]⟩ : Shape).Idx → EReal) : EReal :=
  ∑ b : Fin 4096, ∑ k : Fin 32000, term e l cn b k

/-- The last two scalar steps, the same in both programs: divide by the batch size 4096.0, then multiply by 1.0. -/
def meanScale (s : FVec Ideal (⟨0, ![]⟩ : Shape) .f32) : FVec Ideal (⟨0, ![]⟩ : Shape) .f32 :=
  mulf (Host.divf s (constant (F := Ideal) (⟨0, ![]⟩ : Shape) .f32 0x45800000#32))
    (constant (F := Ideal) (⟨0, ![]⟩ : Shape) .f32 0x3F800000#32)

/-- The loss: the mean-and-scale of the sum of all entries, a scalar array. -/
def loss (e : (⟨2, ![4096, 256]⟩ : Shape).Idx → EReal) (l : (⟨1, ![4096]⟩ : Shape).Idx → BitVec 32)
    (cn : (⟨2, ![32000, 256]⟩ : Shape).Idx → EReal) : FVec Ideal (⟨0, ![]⟩ : Shape) .f32 :=
  meanScale fun _ => total e l cn

/-- Entry `j` of class tile `t` is class `256·t + j`. -/
def cls (t : Fin 125) (j : Fin 256) : Fin 32000 := ⟨256 * t.val + j.val, by omega⟩

theorem cls_val (t : Fin 125) (j : Fin 256) : (cls t j).val = 256 * t.val + j.val := rfl

/-- (tile, entry) ↦ class is a bijection of 125 × 256 onto the 32000 classes: quotient and remainder by 256. -/
def clsEquiv : Fin 125 × Fin 256 ≃ Fin 32000 where
  toFun p := cls p.1 p.2
  invFun k := (⟨k.val / 256, by omega⟩, ⟨k.val % 256, by omega⟩)
  left_inv p := by
    obtain ⟨t, j⟩ := p
    refine Prod.ext (Fin.ext ?_) (Fin.ext ?_)
    · show (256 * t.val + j.val) / 256 = t.val
      omega
    · show (256 * t.val + j.val) % 256 = j.val
      omega
  right_inv k := by
    apply Fin.ext
    show 256 * (k.val / 256) + k.val % 256 = k.val
    omega

/-- So a sum over the classes is the sum over the tiles of the sums over a tile's entries. -/
theorem sum_cls {M : Type*} [AddCommMonoid M] (f : Fin 32000 → M) :
    ∑ t : Fin 125, ∑ j : Fin 256, f (cls t j) = ∑ k : Fin 32000, f k := by
  rw [← Equiv.sum_comp clsEquiv f, Fintype.sum_prod_type]
  rfl

/-- What class tile `t` contributes: its 4096 × 256 entries, rows outside, the tile's classes inside. -/
def tile (e : (⟨2, ![4096, 256]⟩ : Shape).Idx → EReal) (l : (⟨1, ![4096]⟩ : Shape).Idx → BitVec 32)
    (cn : (⟨2, ![32000, 256]⟩ : Shape).Idx → EReal) (t : Fin 125) : EReal :=
  ∑ b : Fin 4096, ∑ j : Fin 256, term e l cn b (cls t j)

/-- The tiles' contributions add up to the whole sum: exchange the tile and the row sums, then each row's classes are
    its tiles' entries (`sum_cls`). -/
theorem sum_tiles (e : (⟨2, ![4096, 256]⟩ : Shape).Idx → EReal) (l : (⟨1, ![4096]⟩ : Shape).Idx → BitVec 32)
    (cn : (⟨2, ![32000, 256]⟩ : Shape).Idx → EReal) :
    ∑ t : Fin 125, tile e l cn t = total e l cn := by
  unfold tile total
  rw [Finset.sum_comm]
  exact Finset.sum_congr rfl fun b _ => sum_cls fun k => term e l cn b k

/-- The running sum after tile `n`, in the order the tiles are added: `0 + tile 0`, then `+ tile (n+1)`. -/
def partialSum (f : Fin 125 → EReal) : (n : ℕ) → n < 125 → EReal
  | 0, h => 0 + f ⟨0, h⟩
  | n + 1, h => partialSum f n (Nat.lt_of_succ_lt h) + f ⟨n + 1, h⟩

/-- The running sum after tile `n` is the sum of tiles 0 … n. -/
theorem partialSum_eq (f : Fin 125 → EReal) : ∀ (n : ℕ) (h : n < 125),
    partialSum f n h = ∑ t ∈ Finset.univ.filter (fun t : Fin 125 => t.val ≤ n), f t
  | 0, h => by
    have : Finset.univ.filter (fun t : Fin 125 => t.val ≤ 0) = {⟨0, h⟩} := by
      ext t
      simp only [Finset.mem_filter, Finset.mem_univ, true_and, Finset.mem_singleton]
      exact ⟨fun ht => Fin.ext (show t.val = 0 by omega), fun ht => by subst ht; exact le_refl _⟩
    rw [this, Finset.sum_singleton]
    exact zero_add _
  | n + 1, h => by
    have : Finset.univ.filter (fun t : Fin 125 => t.val ≤ n + 1)
        = insert (⟨n + 1, h⟩ : Fin 125) (Finset.univ.filter (fun t : Fin 125 => t.val ≤ n)) := by
      ext t
      simp only [Finset.mem_filter, Finset.mem_univ, true_and, Finset.mem_insert]
      constructor
      · intro ht
        by_cases he : t.val = n + 1
        · exact Or.inl (Fin.ext he)
        · exact Or.inr (by omega)
      · rintro (ht | ht)
        · subst ht; exact le_refl _
        · omega
    rw [this, Finset.sum_insert (by simp), partialSum, partialSum_eq f n, add_comm]

/-- After the last tile the running sum is the sum over all tiles. -/
theorem partialSum_last (f : Fin 125 → EReal) : partialSum f 124 (by omega) = ∑ t : Fin 125, f t := by
  rw [partialSum_eq]
  refine Finset.sum_congr ?_ fun _ _ => rfl
  exact Finset.filter_true_of_mem fun t _ => by have := t.isLt; omega

end Cert.CenterLoss

end
-- ==== Proof.Words.lean ====
/-
  Small facts about words, masks and column layouts, each read at one element.

  * A one-bit equality test selects: `select (a == b) X Y` is `X` where `a = b` and `Y` elsewhere, and, on the
    extended reals, multiplying `X` by the test converted to a float (1 or 0) is `X` where `a = b` and `0` elsewhere
    (`X · 1 = X` and `X · 0 = 0` hold for every extended real, the infinities included). So "select the distance or
    zero" and "multiply the distance by the 0/1 mask" are one function.
  * Entry `j` of class tile `t` is numbered `256·t + j`; as 32-bit words `t·256 + j` is that number's word, whatever
    `t` and `j` (taking the word of a natural number commutes with `+` and `·`).
  * A length-`a` vector viewed as an `a × 1` column reads `(p, 0)` at `p`; an `a × 1` column broadcast along rows to
    `a × b` reads `(p, c)` at `(p, 0)`.
-/
import Idealize.ShloMosaic.PureOps.Ideal
import Idealize.ShloMosaic.Lib.ValueIdx
import Idealize.ShloMosaic.Lib.Pipeline.Value
import Idealize.ShloMosaic.Lib.StableHlo.Predicate

noncomputable section

namespace Cert.CenterLoss

open Idealize.ShloMosaic Idealize.ShloMosaic.ValueIdx

/-- The equality test is the bit 1 exactly where the words are equal. -/
theorem cmpi_eq_one_iff (a b : BitVec 32) : IntOp.cmpi .eq a b = 1#1 ↔ a = b :=
  StableHlo.Predicate.cmpi_eq_iff

/-- Selecting on an equality test is the `if` on the equality. -/
theorem select_cmpi_eq {α : Type} (a b : BitVec 32) (X Y : α) :
    Scalar.select (IntOp.cmpi .eq a b) X Y = if a = b then X else Y := by
  unfold Scalar.select
  by_cases h : a = b
  · exact (if_pos ((cmpi_eq_one_iff a b).mpr h)).trans (if_pos h).symm
  · exact (if_neg fun h' => h ((cmpi_eq_one_iff a b).mp h')).trans (if_neg h).symm

/-- On the extended reals, a value times the equality test's bit (read as the number 1 or 0) keeps the value where the
    words are equal and is 0 elsewhere. -/
theorem mul_cmpi_eq (a b : BitVec 32) (X : EReal) :
    X * (((IntOp.cmpi .eq a b).toNat : ℝ) : EReal) = if a = b then X else 0 := by
  by_cases h : a = b
  · rw [if_pos h, (cmpi_eq_one_iff a b).mpr h]
    simp
  · rw [if_neg h, eq_zero_of_ne_one fun h' => h ((cmpi_eq_one_iff a b).mp h')]
    simp

/-- The word of `t` times the word 256, plus the word of `j`, is the word of `256·t + j`. -/
theorem word_tile_entry (t j : ℕ) :
    IntOp.addi (Scalar.muli (BitVec.ofNat 32 t) 256#32) (BitVec.ofNat 32 j) = BitVec.ofNat 32 (256 * t + j) := by
  unfold IntOp.addi Scalar.muli IntOp.muli
  apply BitVec.eq_of_toNat_eq
  simp only [BitVec.toNat_add, BitVec.toNat_mul, BitVec.toNat_ofNat]
  omega

/-- A vector viewed as a one-column matrix reads `(p, q)` at `p`. -/
theorem shapeCast_col_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) := by
  refine shapeCast_apply x h (ix2 p q) (ix1 p) ?_
  rw [Shape.rowMajor_val_one, Shape.rowMajor_val_two]
  show p.val = p.val * 1 + q.val
  have := q.isLt
  omega

/-- A one-column matrix broadcast along its rows reads `(p, c)` at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.CenterLoss

end
-- ==== Proof.KernelTile.lean ====
/-
  What one grid point of the kernel adds to the accumulator, as a number.

  At class tile `t` the body holds the whole embedding matrix `x1` (4096 × 256), the tile's 256 center rows `x0`
  (256 × 256) and the label column `x2` (4096 × 1). It forms, for every row `b` and tile entry `j`,
      ‖x1_b‖² + ‖x0_j‖² − 2·⟨x1_b, x0_j⟩,
  keeps it where the row's label is class `256·t + j` (0 elsewhere), clamps it to [lo, hi], and sums over `j`, then over
  `b`. Read at the extended reals every operation is its textbook one and the narrowing of the matrix product's
  operands is the identity, so the payload's one element is that double sum (`pay3_apply`). The four reads below take
  the layout operations apart: a row norm broadcast along its row, a center norm transposed into a row and broadcast down
  the columns, the matrix product at (b, j), and the label test at (b, j).
-/
import proofs.«170100_j17884243820955_1_alg».proof.Proof.Gen.KernelIdeal.Skeleton
import proofs.«170100_j17884243820955_1_alg».proof.Proof.Spec
import proofs.«170100_j17884243820955_1_alg».proof.Proof.Words
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Idealize.ShloMosaic Idealize.ShloMosaic.ValueIdx Cert.CenterLoss

/-- Row `p` of a 4096 × 256 matrix with lane `k` inserted is entry (p, k). -/
theorem lift_row4096 (p : Fin 4096) (k : Fin 256) :
    Facts₀.reduces_S4096x256_S4096.lift (ix1 p) k = ix2 p k :=
  funext fun a => Fin.ext (by match a with | ⟨0, _⟩ => rfl | ⟨1, _⟩ => rfl)

/-- Row `p` of a 256 × 256 matrix with lane `k` inserted is entry (p, k). -/
theorem lift_row256 (p : Fin 256) (k : Fin 256) :
    Facts₀.reduces_S256x256_S256.lift (ix1 p) k = ix2 p k :=
  funext fun a => Fin.ext (by match a with | ⟨0, _⟩ => rfl | ⟨1, _⟩ => rfl)

/-- The squared norm of embedding row `b`, computed as a lane sum, viewed as a column and broadcast along the row, read
    at (b, j): `Σ_d x1[b,d]²`. -/
theorem rowNorm_apply (x1 : FVec Ideal S4096x256 .f32) (hφ : FKind.Formats .f32)
    (hacc : (0x00000000#32 : BitVec 32) = 0x00000000#32) (b : Fin 4096) (j : Fin 256) :
    broadcastTo S4096x256
        (shapeCast S4096x1 (multiReduction .add [1] S4096 (mulf x1 x1) 0x00000000#32 Facts₀.reduces_S4096x256_S4096 hφ hacc)
          Facts₀.shapeCasts_S4096_S4096x1)
        Facts₀.broadcasts_S4096x1_S4096x256 (ix2 b j)
      = ∑ d : Fin 256, x1 (ix2 b d) * x1 (ix2 b d) := by
  rw [broadcastTo_col_apply, shapeCast_col_apply]
  refine (Ideal.multiReduction_add_single (mulf x1 x1) 0x00000000#32 Facts₀.reduces_S4096x256_S4096 hφ hacc (ix1 b)).trans ?_
  refine Finset.sum_congr (s₁ := (Finset.univ : Finset (Fin 256))) rfl fun d _ => ?_
  exact congrArg (mulf x1 x1) (lift_row4096 b d)

/-- The squared norm of the tile's center row `j`, computed as a lane sum, viewed as a column, transposed into a row and
    broadcast down the columns, read at (b, j): `Σ_d x0[j,d]²`. -/
theorem centerNorm_apply (x0 : FVec Ideal S256x256 .f32) (hφ : FKind.Formats .f32)
    (hacc : (0x00000000#32 : BitVec 32) = 0x00000000#32) (b : Fin 4096) (j : Fin 256) :
    broadcastTo S4096x256
        (transpose S1x256 [1, 0]
          (shapeCast S256x1 (multiReduction .add [1] S256 (mulf x0 x0) 0x00000000#32 Facts₀.reduces_S256x256_S256 hφ hacc)
            Facts₀.shapeCasts_S256_S256x1)
          Facts₀.transposes_S256x1_p1_0_S1x256)
        Facts₀.broadcasts_S1x256_S4096x256 (ix2 b j)
      = ∑ d : Fin 256, x0 (ix2 j d) * x0 (ix2 j d) := by
  rw [broadcastTo_1b_ab_apply, transpose_ix2_apply, shapeCast_col_apply]
  refine (Ideal.multiReduction_add_single (mulf x0 x0) 0x00000000#32 Facts₀.reduces_S256x256_S256 hφ hacc (ix1 j)).trans ?_
  refine Finset.sum_congr (s₁ := (Finset.univ : Finset (Fin 256))) rfl fun d _ => ?_
  exact congrArg (mulf x0 x0) (lift_row256 j d)

/-! The matrix product contracts the feature axis of both operands: entry (b, j) pairs embedding row `b` with center
    row `j`. The four coordinate facts of its operand indices, then the product as a sum over the 256 features. -/

theorem lhs_dot_0 (i : S4096x256.Idx) (q : dot_S4096x256_S256x256_S4096x256_1_1_0_0_n_n.contr.Idx) :
    (dot_S4096x256_S256x256_S4096x256_1_1_0_0_n_n.lhsIdx i q 0).val = (i 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
theorem lhs_dot_1 (i : S4096x256.Idx) (q : dot_S4096x256_S256x256_S4096x256_1_1_0_0_n_n.contr.Idx) :
    (dot_S4096x256_S256x256_S4096x256_1_1_0_0_n_n.lhsIdx i q 1).val = (q ⟨0, by decide⟩).val :=
  dot_S4096x256_S256x256_S4096x256_1_1_0_0_n_n.lhsIdx_val_of_single rfl i q
theorem rhs_dot_0 (i : S4096x256.Idx) (q : dot_S4096x256_S256x256_S4096x256_1_1_0_0_n_n.contr.Idx) :
    (dot_S4096x256_S256x256_S4096x256_1_1_0_0_n_n.rhsIdx i q 0).val = (i 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
theorem rhs_dot_1 (i : S4096x256.Idx) (q : dot_S4096x256_S256x256_S4096x256_1_1_0_0_n_n.contr.Idx) :
    (dot_S4096x256_S256x256_S4096x256_1_1_0_0_n_n.rhsIdx i q 1).val = (q ⟨0, by decide⟩).val :=
  dot_S4096x256_S256x256_S4096x256_1_1_0_0_n_n.rhsIdx_val_of_single rfl i q

/-- The matrix product of the (narrowed) embeddings and the (narrowed) tile of centers into a zero accumulator, read at
    (b, j): `Σ_d x1[b,d]·x0[j,d]` — the narrowing is the identity on the extended reals. -/
theorem dot_apply (x1 : FVec Ideal S4096x256 .f32) (x0 : FVec Ideal S256x256 .f32) (b : Fin 4096) (j : Fin 256) :
    matmul dot_S4096x256_S256x256_S4096x256_1_1_0_0_n_n none (truncf .bf16 x1 Facts₀.bitsLt_bf16_f32)
        (truncf .bf16 x0 Facts₀.bitsLt_bf16_f32) (constant S4096x256 .f32 0x00000000#32) (ix2 b j)
      = ∑ d : Fin 256, x1 (ix2 b d) * x0 (ix2 j d) := by
  simp only [matmul]
  rw [Ideal.matmul_constant_zero_apply, ← Equiv.sum_comp (ValueIdx.contrEquiv1 dot_S4096x256_S256x256_S4096x256_1_1_0_0_n_n 256 rfl rfl).symm]
  refine Finset.sum_congr rfl fun k _ => ?_
  have hk := ValueIdx.contrEquiv1_symm_val dot_S4096x256_S256x256_S4096x256_1_1_0_0_n_n 256 rfl rfl k
  have el : dot_S4096x256_S256x256_S4096x256_1_1_0_0_n_n.lhsIdx (ix2 b j) ((ValueIdx.contrEquiv1 dot_S4096x256_S256x256_S4096x256_1_1_0_0_n_n 256 rfl rfl).symm k) = ix2 b k := funext fun a => Fin.ext (by
    match a with
    | ⟨0, _⟩ => exact lhs_dot_0 _ _
    | ⟨1, _⟩ => exact (lhs_dot_1 _ _).trans hk)
  have er : dot_S4096x256_S256x256_S4096x256_1_1_0_0_n_n.rhsIdx (ix2 b j) ((ValueIdx.contrEquiv1 dot_S4096x256_S256x256_S4096x256_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]
  rfl

/-- The label test at (b, j) of tile `t`: row `b`'s label against the word of class `256·t + j`. -/
theorem mask_apply (t : ℕ) (x2 : IVec S4096x1 32) (b : Fin 4096) (j : Fin 256) :
    cmpi .eq
        (broadcastTo S4096x256 (shapeCast S4096x1 x2 Facts₀.shapeCasts_S4096x1_S4096x1) Facts₀.broadcasts_S4096x1_S4096x256)
        (broadcastTo S4096x256
          (addi (broadcast S1x256 (Scalar.muli (BitVec.ofNat 32 t) 256#32)) (iota .tc S1x256 32 [1] Facts₀.iota_S1x256_d1_w32))
          Facts₀.broadcasts_S1x256_S4096x256) (ix2 b j)
      = IntOp.cmpi .eq (x2 (ix2 b (0 : Fin 1))) (BitVec.ofNat 32 (256 * t + j.val)) := by
  show IntOp.cmpi .eq (broadcastTo S4096x256 (shapeCast S4096x1 x2 Facts₀.shapeCasts_S4096x1_S4096x1) Facts₀.broadcasts_S4096x1_S4096x256 (ix2 b j))
      (broadcastTo S4096x256
          (addi (broadcast S1x256 (Scalar.muli (BitVec.ofNat 32 t) 256#32)) (iota .tc S1x256 32 [1] Facts₀.iota_S1x256_d1_w32))
          Facts₀.broadcasts_S1x256_S4096x256 (ix2 b j)) = _
  rw [broadcastTo_col_apply, shapeCast_self, broadcastTo_1b_ab_apply]
  show IntOp.cmpi .eq _ (IntOp.addi (Scalar.muli (BitVec.ofNat 32 t) 256#32) (iota .tc S1x256 32 [1] Facts₀.iota_S1x256_d1_w32 (ix2 (0 : Fin 1) j))) = _
  rw [iota_single_apply]
  exact congrArg _ (word_tile_entry t j.val)

/-- THE TILE'S CONTRIBUTION. The payload's one element is the sum, over the rows and the tile's entries, of the clamped
    masked squared distances. -/
theorem pay3_apply (i : grid0.Coords) (x1 : Vec Ideal S4096x256 .f32) (x0 : Vec Ideal S256x256 .f32)
    (x2 : Vec Ideal S4096x1 .i32) (y : S1x1.Idx) :
    Gen.k0_pay3 (F := Ideal) i x1 x0 x2 y
      = ∑ b : Fin 4096, ∑ j : Fin 256,
          min hi (max lo (if x2 (ix2 b (0 : Fin 1)) = BitVec.ofNat 32 (256 * (i 0).val + j.val) then
            ((∑ d : Fin 256, x1 (ix2 b d) * x1 (ix2 b d)) + ∑ d : Fin 256, x0 (ix2 j d) * x0 (ix2 j d))
              - two * ∑ d : Fin 256, x1 (ix2 b d) * x0 (ix2 j d) else 0)) := by
  unfold Gen.k0_pay3
  refine (shapeCast_addUnit_apply (n := 1) ![1] _ _ y).trans ?_
  refine (Ideal.multiReduction_add_single _ _ Facts₀.reduces_S4096x1_S1 _ _ _).trans ?_
  refine Finset.sum_congr (s₁ := (Finset.univ : Finset (Fin 4096))) rfl fun b _ => ?_
  have eb : Facts₀.reduces_S4096x1_S1.lift (fun a => y a.succ) b = ix2 b (0 : Fin 1) :=
    funext fun a => Fin.ext (by
      match a with
      | ⟨0, _⟩ => rfl
      | ⟨1, _⟩ => show (y 1).val = 0; have : (y 1).val < 1 := (y 1).isLt; omega)
  rw [eb, shapeCast_col_apply]
  refine (Ideal.multiReduction_add_single _ _ Facts₀.reduces_S4096x256_S4096 _ _ (ix1 b)).trans ?_
  refine Finset.sum_congr (s₁ := (Finset.univ : Finset (Fin 256))) rfl fun j _ => ?_
  rw [lift_row4096]
  simp only [minimumf_apply, maximumf_apply, select_apply, subf_apply, addf_apply, mulf_apply, broadcast_apply]
  rw [mask_apply, rowNorm_apply, centerNorm_apply, dot_apply, select_cmpi_eq]
  rw [show (FloatOps.ofBits (F := Ideal) FTy.f32 0x00000000#32) = (0 : EReal) from Ideal.ofBits_zero_f32]
  rfl

end Cert.KernelIdeal.Tile

end
-- ==== Proof.KernelLoss.lean ====
/-
  The kernel's accumulator, read as a number.

  The grid walks the 125 class tiles in order; the 1 × 1 output block never moves, is reset at the first point and is
  written back after the last. At the first point the body leaves `0 + (tile 0's contribution)` in it, at every later
  point `(what the point before left) + (this tile's contribution)`; so after point `n` it holds the running sum of
  tiles 0 … n, and after the last point the sum over all tiles, which is the sum over all 4096 × 32000 entries
  (`Cert.CenterLoss.sum_tiles`).

  A tile's contribution is the payload of `KernelTile.lean` at the point's blocks. The blocks are read off the argument
  arrays: the embedding window's block is the whole array at every point; the centers window's block at point `t` is
  rows `256·t … 256·t + 255`; the label window's block is the whole label column, which the host made from the label
  vector by a reshape (entry `(b, 0)` is label `b`). With these the point's contribution is `Cert.CenterLoss.tile` of
  the three argument arrays at tile `t`.
-/
import proofs.«170100_j17884243820955_1_alg».proof.Proof.Gen.KernelIdeal.Frame
import proofs.«170100_j17884243820955_1_alg».proof.Proof.KernelTile
import Idealize.ShloMosaic.Lib.Pipeline.Value
import Idealize.ShloMosaic.Lib.StableHlo.Run
import Idealize.ShloMosaic.Lib.Tactic

noncomputable section

open scoped BigOperators

namespace Cert.KernelIdeal.Loss

open Cert.KernelIdeal Cert.KernelIdeal.Gen Idealize.ShloMosaic Idealize.ShloMosaic.TcCoe Idealize.SL.Sem
open Idealize.ShloMosaic.ValueIdx Cert.CenterLoss
open Idealize.ShloMosaic.Pipeline (Dat)

/-! ## What the body leaves in the output block, case by case (any float instance) -/

section Cases

variable {F : FTy → Type} [FloatOps F]

theorem hz : (![0, 0] : Fin 2 → Nat) = fun _ => 0 := funext fun a => by fin_cases a <;> rfl

/-- A LATER POINT: the block holding `xo` ends holding `xo + (the payload of the point's blocks)` — the one covering
    store's value, its loads reading the whole staging buffers. -/
theorem out_B (c : Dev nD) (i : grid0.Coords) (a1 : Memref sig .tc .vmem S256x256 .f32) (h1 : a1.IsWhole)
    (a2 : Memref sig .tc .vmem S4096x256 .f32) (h2 : a2.IsWhole) (a3 : Memref sig .tc .vmem S4096x1 .i32) (h3 : a3.IsWhole)
    (a4 : Memref sig .tc .vmem S1x1 .f32) (h4 : a4.IsWhole) (hc : ¬cond0_0 i)
    (x0 : Vec F S256x256 .f32) (x1 : Vec F S4096x256 .f32) (x2 : Vec F S4096x1 .i32) (xo : Vec F S1x1 .f32) :
    out0_B_3 c i a1 h1 a2 h2 a3 h3 a4 h4 hc x0 x1 x2 xo = k0_pay1 (k0_pay3 i x1 x0 x2) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S256x256) hz, View.ld_unit_zero (S := S4096x256) hz, View.ld_unit_zero (S := S4096x1) hz,
    View.ld_unit_zero (S := S1x1) hz]

/-- THE FIRST POINT: the body stores the zero block, reads it back, and leaves `0 + (the payload of the point's blocks)`. -/
theorem out_A (c : Dev nD) (i : grid0.Coords) (a1 : Memref sig .tc .vmem S256x256 .f32) (h1 : a1.IsWhole)
    (a2 : Memref sig .tc .vmem S4096x256 .f32) (h2 : a2.IsWhole) (a3 : Memref sig .tc .vmem S4096x1 .i32) (h3 : a3.IsWhole)
    (a4 : Memref sig .tc .vmem S1x1 .f32) (h4 : a4.IsWhole) (hc : cond0_0 i)
    (x0 : Vec F S256x256 .f32) (x1 : Vec F S4096x256 .f32) (x2 : Vec F S4096x1 .i32) :
    out0_A_3 c i a1 h1 a2 h2 a3 h3 a4 h4 hc x0 x1 x2 = k0_pay1 (k0_pay3 i x1 x0 x2) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S256x256) hz, View.ld_unit_zero (S := S4096x256) hz, View.ld_unit_zero (S := S4096x1) hz,
    View.ld_unit_zero (S := S1x1) hz]

end Cases

/-! ## At the extended reals -/

variable (m : (ℓ : Loc nD τ sig) → Buf (Elt Ideal) ℓ) (ρ : Dev nD → PrngReg)

/-- The update adds the tile's contribution to what the block held. -/
theorem pay1_apply (v39 : FVec Ideal S1x1 .f32) (v40 : Vec Ideal S1x1 .f32) (y : S1x1.Idx) :
    k0_pay1 (F := Ideal) v39 v40 y = v40 y + v39 y := by
  unfold k0_pay1
  rw [shapeCast_self]
  rfl

/-- The reset stores zero. -/
theorem pay2_apply (y : S1x1.Idx) : k0_pay2 (F := Ideal) y = 0 := by
  unfold k0_pay2
  exact Ideal.ofBits_zero_f32

/-- The three argument arrays on core `c`. -/
abbrev emb (c : Dev nD) : FVec Ideal S4096x256 .f32 := m ((c : Thread nD τ).loc main_arg0)
abbrev lab (c : Dev nD) : IVec S4096 32 := m ((c : Thread nD τ).loc main_arg1)
abbrev cen (c : Dev nD) : FVec Ideal S32000x256 .f32 := m ((c : Thread nD τ).loc main_arg2)

/-- The three input blocks at point `t`, at their literal types. -/
abbrev embBlk (c : Dev nD) (t : Fin cfg0.N) : Vec Ideal S4096x256 .f32 := iblk m c 1 t
abbrev cenBlk (c : Dev nD) (t : Fin cfg0.N) : Vec Ideal S256x256 .f32 := iblk m c 0 t
abbrev labBlk (c : Dev nD) (t : Fin cfg0.N) : Vec Ideal S4096x1 .i32 := iblk m c 2 t

/-- Where the windows' blocks sit, decided over the grid: the centers window's block index is (t, 0), the other two
    inputs' is (0, 0); the grid coordinate of point `t` is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ (grid0.coords t 0).val = t.val :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ (grid0.coords t 0).val = t.val)

theorem N125 : cfg0.N = 125 := N_0

/-- Point `t` as a tile number. -/
abbrev tileOf (t : Fin cfg0.N) : Fin 125 := ⟨t.val, lt_of_lt_of_eq t.isLt N125⟩

/-- The embedding window's block is the whole embedding matrix. -/
theorem embBlk_apply (c : Dev nD) (t : Fin cfg0.N) (b : Fin 4096) (d : Fin 256) :
    embBlk m c t (ix2 b d) = emb m c (ix2 b d) := by
  show ((cfg0.win 1).blk t).view.read (Elt Ideal) (V m c main_arg0) (ix2 b d) = _
  rw [View.read_apply, V_main_arg0]
  refine congrArg (emb m c) (funext fun a => Fin.ext ?_)
  obtain ⟨-, -, h0, h1, -⟩ := idx_facts t
  match a with
  | ⟨0, _⟩ => show win0_1.index t 0 * 4096 + 1 * b.val = b.val; rw [h0]; omega
  | ⟨1, _⟩ => show win0_1.index t 1 * 256 + 1 * d.val = d.val; rw [h1]; omega

/-- The centers window's block at point `t` is rows `256·t …` of the centers matrix. -/
theorem cenBlk_apply (c : Dev nD) (t : Fin cfg0.N) (j d : Fin 256) :
    cenBlk m c t (ix2 j d) = cen m c (ix2 (cls (tileOf t) j) d) := by
  show ((cfg0.win 0).blk t).view.read (Elt Ideal) (V m c main_arg2) (ix2 j d) = _
  rw [View.read_apply, V_main_arg2]
  refine congrArg (cen m c) (funext fun a => Fin.ext ?_)
  obtain ⟨h0, h1, -⟩ := idx_facts t
  match a with
  | ⟨0, _⟩ => show win0_0.index t 0 * 256 + 1 * j.val = 256 * t.val + j.val; rw [h0]; omega
  | ⟨1, _⟩ => show win0_0.index t 1 * 256 + 1 * d.val = d.val; rw [h1]; omega

/-- The label column the region finds is the host's reshape of the label vector. -/
theorem V_labels (c : Dev nD) :
    (V m c main_v0 : IVec S4096x1 32) = shapeCast S4096x1 (lab m c) Facts₀.shapeCasts_S4096_S4096x1 := by
  show StableHlo.after hostOps0 (fun b => m (c, b)) (Proc.devRef .tc main_v0) = _
  after_results
  rfl

/-- The label window's block is the whole label column: entry (b, 0) is label `b`. -/
theorem labBlk_apply (c : Dev nD) (t : Fin cfg0.N) (b : Fin 4096) :
    labBlk m c t (ix2 b (0 : Fin 1)) = lab m c (ix1 b) := by
  show ((cfg0.win 2).blk t).view.read (Elt Ideal) (V m c main_v0) (ix2 b (0 : Fin 1)) = _
  rw [View.read_apply]
  have e : (V m c main_v0 : IVec S4096x1 32) (ix2 b (0 : Fin 1)) = lab m c (ix1 b) := by
    rw [V_labels]; exact shapeCast_col_apply _ _ b 0
  refine Eq.trans (congrArg (V m c main_v0 : IVec S4096x1 32) (funext fun a => Fin.ext ?_)) e
  obtain ⟨-, -, -, -, h0, h1, -⟩ := idx_facts t
  match a with
  | ⟨0, _⟩ => show win0_2.index t 0 * 4096 + 1 * b.val = b.val; rw [h0]; omega
  | ⟨1, _⟩ => show win0_2.index t 1 * 1 + 1 * 0 = 0; rw [h1]

/-- THE POINT'S CONTRIBUTION is the tile's: the payload at point `t`'s blocks is `tile` of the argument arrays at `t`. -/
theorem point_eq_tile (c : Dev nD) (t : Fin cfg0.N) (y : S1x1.Idx) :
    k0_pay3 (F := Ideal) (grid0.coords t) (embBlk m c t) (cenBlk m c t) (labBlk m c t) y
      = tile (emb m c) (lab m c) (cen m c) (tileOf t) := by
  rw [Cert.KernelIdeal.Tile.pay3_apply]
  unfold tile term Cert.CenterLoss.dist
  refine Finset.sum_congr rfl fun b _ => Finset.sum_congr rfl fun j _ => ?_
  simp only [embBlk_apply, cenBlk_apply, labBlk_apply, (idx_facts t).2.2.2.2.2.2]
  rfl

/-- THE RUNNING SUM. After point `n` the output block holds the sum of the contributions of tiles 0 … n, added in
    that order from zero. -/
theorem outsAt_eq (c : Dev nD) : ∀ (n : ℕ) (h : n < cfg0.N) (y : S1x1.Idx),
    outsAt0 m c n h y = partialSum (tile (emb m c) (lab m c) (cen m c)) n (lt_of_lt_of_eq h N125)
  | 0, h, y => by
    rw [outsAt0_A m c ⟨0, h⟩ rfl, out_A, pay1_apply, pay2_apply]
    show 0 + k0_pay3 (F := Ideal) (grid0.coords ⟨0, h⟩) (embBlk m c ⟨0, h⟩) (cenBlk m c ⟨0, h⟩) (labBlk m c ⟨0, h⟩) y = _
    rw [point_eq_tile]
    rfl
  | n + 1, h, y => by
    have hN : cfg0.N = 125 := N125
    have hB : ¬(⟨n + 1, h⟩ : Fin cfg0.N).val % 125 = 0 := by dsimp only; omega
    rw [outsAt0_B m c ⟨n + 1, h⟩ hB, out_B, pay1_apply]
    show outsAt0 m c n _ y + k0_pay3 (F := Ideal) (grid0.coords ⟨n + 1, h⟩) (embBlk m c ⟨n + 1, h⟩) (cenBlk m c ⟨n + 1, h⟩) (labBlk m c ⟨n + 1, h⟩) y = _
    rw [outsAt_eq c n, point_eq_tile]
    rfl

/-! ## The result array, the host's last lines, the run -/

/-- What the 1 × 1 result array ends holding: the sum of all entries. -/
abbrev result (c : Dev nD) : Buf (Elt Ideal) ((c : Thread nD τ).loc main_v1) :=
  fun _ => total (emb m c) (lab m c) (cen m c)

/-- The last grid point. -/
abbrev tLast : Fin cfg0.N := ⟨124, by rw [N125]; decide⟩

/-- The one write-back, after the last point, writes the running sum after tile 124: the sum over all tiles, which is
    the sum of all entries. -/
theorem flushed_eq (c : Dev nD) (t : Fin cfg0.N) (hf : (cfg0.win 3).flush t = true) :
    (dats m 0 c).flushed 3 t = ((cfg0.win 3).blk t).view.read (Elt Ideal) (result m c) := by
  have hN : cfg0.N = 125 := N125
  have h124 : t.val = 124 := by have := (flush0_3 t).mp hf; have := t.isLt; omega
  obtain rfl : t = tLast := Fin.ext h124
  funext y
  rw [View.read_apply]
  show (dats m 0 c).after 3 tLast _ = total (emb m c) (lab m c) (cen m c)
  rw [after0_3]
  refine (outsAt_eq m c tLast.val tLast.isLt _).trans ?_
  show partialSum _ 124 _ = _
  rw [partialSum_last, sum_tiles]

/-- So the result array ends holding it: the last point's block is the whole 1 × 1 array. -/
theorem final (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]
        omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]
        omega⟩

/-- The host's lines after the region turn the 1 × 1 array into a scalar, divide by 4096.0 and multiply by 1.0: the
    program's result is the loss of the argument arrays. -/
theorem tail_eq (c : Dev nD) :
    Pipeline.afterTail₀ cfgs (dats m) 0 (V0 m) [hostOps1] c main_v4 = loss (emb m c) (lab m c) (cen m c) := by
  unfold Pipeline.afterTail₀
  show StableHlo.after hostOps1 _ (Proc.devRef .tc main_v4) = _
  after_results
  have hw : Pipeline.withArrays spec0 c (V0 m c) (fun w => (dats m 0 c).arrAt w cfg0.N) (Proc.devRef .tc (Pipeline.arrRef spec0 3))
      = result m c :=
    (Pipeline.withArrays_arr spec0 launch0.win.arr_inj c (V0 m c) (fun w => (dats m 0 c).arrAt w cfg0.N) 3).trans (final m c)
  show meanScale _ = meanScale _
  refine congrArg meanScale (funext fun i => ?_)
  exact congrFun (congrArg
    (fun X : Buf (Elt Ideal) ((c : Thread nD τ).loc main_v1) => shapeCast S_ X Facts₀.shapeCasts_S1x1_S_) hw) i

/-- THE RUN, READ. Every weakly fair execution of the idealized kernel terminates with the loss of its argument arrays
    in its result and the arguments unchanged. -/
theorem run : θ_run defs (onTc (τ := τ) (main (F := Ideal))) ⟨m, fun _ => 0, ρ⟩ fun r => ∀ c : Dev nD,
      r.2.mem ((c.tc : Thread nD τ).loc main_v4) = loss (emb m c) (lab m c) (cen m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.Loss

end
-- ==== Proof.RefLoss.lean ====
/-
  The reference's loss, read as a number.

  Entry (b, k) of the reference's clamped matrix is `min hi (max lo (dist · mask))`, where `dist` is
  `(0 + Σ_d e[b,d]²) + (0 + Σ_d c[k,d]²) − 2·Σ_d e[b,d]·c[k,d]` and `mask` is the 0/1 value of "label b is class k".
  A product with the 0/1 mask keeps `dist` on the label's class and is 0 elsewhere (for every extended real), and
  `0 + x = x`; so the entry is `Cert.CenterLoss.term`, and the sum of all entries from zero is `0 + total`.
-/
import proofs.«170100_j17884243820955_1_alg».proof.Proof.Gen.ReferenceIdeal.Read
import proofs.«170100_j17884243820955_1_alg».proof.Proof.Spec
import proofs.«170100_j17884243820955_1_alg».proof.Proof.Words
import Idealize.ShloMosaic.Lib.ValueIdx
import Idealize.ShloMosaic.PureOps.Ideal.Laws

noncomputable section

open scoped BigOperators

namespace Cert.ReferenceIdeal.Loss

open Cert.ReferenceIdeal Cert.ReferenceIdeal.Read Idealize.ShloMosaic Idealize.ShloMosaic.ValueIdx Cert.CenterLoss

/-! The composed index maps of the broadcasts, at entry (b, k): embedding row `b`, center row `k`, label `b`. -/

theorem idx_rowNorm (b : Fin 4096) (k : Fin 32000) (d : Fin 256) :
    idx_main_v1 (idx_main_v2 (idx_main_v6 (ix2 b k))) d = ix2 b d :=
  funext fun a => Fin.ext (by match a with | ⟨0, _⟩ => rfl | ⟨1, _⟩ => rfl)

theorem idx_centerNorm (b : Fin 4096) (k : Fin 32000) (d : Fin 256) :
    idx_main_v4 (idx_main_v5 (idx_main_v7 (ix2 b k))) d = ix2 k d :=
  funext fun a => Fin.ext (by match a with | ⟨0, _⟩ => rfl | ⟨1, _⟩ => rfl)

theorem idx_dotL (b : Fin 4096) (k : Fin 32000) (d : Fin 256) : lidx_main_v9 (ix2 b k) d = ix2 b d :=
  funext fun a => Fin.ext (by match a with | ⟨0, _⟩ => rfl | ⟨1, _⟩ => rfl)

theorem idx_dotR (b : Fin 4096) (k : Fin 32000) (d : Fin 256) : ridx_main_v9 (ix2 b k) d = ix2 k d :=
  funext fun a => Fin.ext (by match a with | ⟨0, _⟩ => rfl | ⟨1, _⟩ => rfl)

theorem idx_label (b : Fin 4096) (k : Fin 32000) : idx_main_v14 (idx_main_v16 (ix2 b k)) = ix1 b :=
  funext fun a => Fin.ext (by match a with | ⟨0, _⟩ => rfl)

/-- ENTRY (b, k) of the reference's clamped matrix is `term`. -/
theorem entry_eq (x0 : FVec Ideal S4096x256 .f32) (x1 : IVec S4096 32) (x2 : FVec Ideal S32000x256 .f32)
    (b : Fin 4096) (k : Fin 32000) :
    val_main_v21 (F := Ideal) x0 x1 x2 (ix2 b k) = term x0 x1 x2 b k := by
  simp only [val_main_v21_apply, val_main_call0_v4_apply, val_main_call0_v3_apply, val_main_cst_3_apply,
    val_main_call0_v2_apply, val_main_call0_v1_apply, val_main_call0_v0_apply, val_main_cst_2_apply,
    val_main_v20_apply, val_main_v12_apply, val_main_v8_apply, val_main_v6_apply, val_main_v2_apply, val_main_v1_apply,
    val_main_cst_apply, val_main_v0_apply, val_main_v7_apply, val_main_v5_apply, val_main_v4_apply, val_main_cst_0_apply,
    val_main_v3_apply, val_main_v11_apply, val_main_v10_apply, val_main_cst_1_apply, val_main_v9_apply,
    val_main_v19_apply, val_main_v18_apply, val_main_v16_apply, val_main_v14_apply, val_main_v17_apply,
    val_main_v15_apply, val_main_v13_apply, idx_rowNorm, idx_centerNorm, idx_dotL, idx_dotR, idx_label]
  show min hi (max lo
      ((((Ideal.ofBits .f32 0x00000000#32 + ∑ d : Fin 256, x0 (ix2 b d) * x0 (ix2 b d))
          + (Ideal.ofBits .f32 0x00000000#32 + ∑ d : Fin 256, x2 (ix2 k d) * x2 (ix2 k d)))
        - two * ∑ d : Fin 256, x0 (ix2 b d) * x2 (ix2 k d))
      * (((IntOp.cmpi .eq (x1 (ix1 b)) (BitVec.ofNat 32 k.val)).toNat : ℝ) : EReal))) = _
  rw [mul_cmpi_eq, Ideal.ofBits_zero_f32, zero_add, zero_add]
  rfl

/-- THE WHOLE SUM: the reference's reduction of the clamped matrix from zero is `0 + total`. -/
theorem sum_eq (x0 : FVec Ideal S4096x256 .f32) (x1 : IVec S4096 32) (x2 : FVec Ideal S32000x256 .f32) (i : S_.Idx) :
    val_main_v22 (F := Ideal) x0 x1 x2 i = total x0 x1 x2 := by
  rw [val_main_v22_apply, val_main_cst_4_apply, sum_idx2]
  show Ideal.ofBits .f32 0x00000000#32 + _ = _
  rw [Ideal.ofBits_zero_f32, zero_add]
  unfold total
  exact Finset.sum_congr rfl fun b _ => Finset.sum_congr rfl fun k _ => entry_eq x0 x1 x2 b k

/-- THE REFERENCE'S RESULT is the loss: its last two operations are `meanScale`, applied to the whole sum. -/
theorem result_eq (x0 : FVec Ideal S4096x256 .f32) (x1 : IVec S4096 32) (x2 : FVec Ideal S32000x256 .f32) :
    val_main_v24 (F := Ideal) x0 x1 x2 = loss x0 x1 x2 := by
  have e : val_main_v22 (F := Ideal) x0 x1 x2 = fun _ => total x0 x1 x2 := funext fun i => sum_eq x0 x1 x2 i
  show meanScale (val_main_v22 (F := Ideal) x0 x1 x2) = _
  rw [e]
  rfl

end Cert.ReferenceIdeal.Loss

end
-- ==== Proof.lean ====
/-
  The center loss: a kernel tiled over the classes against its whole-matrix reference, equal over the extended reals.

  Both programs take embeddings `e` (4096 × 256), labels `l` (4096 words) and centers `c` (32000 × 256) and return
      ( Σ_b Σ_k clamp( [l_b = k] · (‖e_b‖² + ‖c_k‖² − 2⟨e_b, c_k⟩) ) ) / 4096 · 1,
  the clamp to [1e-12, 1e12] taken on EVERY entry of the 4096 × 32000 matrix, the dropped ones included.

  The reference forms the whole matrix, multiplies it by the 0/1 label mask, clamps, and sums it in one reduction.
  The kernel walks the classes in 125 tiles of 256: at each grid point it forms the tile's 4096 × 256 distances (the
  matrix product on operands narrowed to bf16, which is the identity on the extended reals), SELECTS the distance or
  zero by the label test, clamps, sums the tile, and adds the sum to a 1 × 1 accumulator that is reset at the first
  point and written back after the last; the host then divides by 4096 and multiplies by 1, as the reference does.

  Why they agree. Selecting `d` or `0` by a test and multiplying `d` by the test's 0/1 value are the same function of
  an extended real (`d·1 = d`, `d·0 = 0`, the infinities included), so entry (b, k) is the same number on both sides
  (`Cert.CenterLoss.term`). The class numbered `256·t + j` in tile `t` is class `k` of the reference's iota. The
  accumulator after point `n` is the running sum of the tiles' contributions (induction over the grid), and the
  tiles' contributions add up to the reference's single sum because (tile, entry) ↦ class is a bijection and addition
  of extended reals is commutative and associative. Nothing here needs the inputs to be finite.

  The three frames: the kernel's two are the generated frame runs; the reference's is its generated run with the
  result forgotten. The idealization rewrote no operation, so `preserves` states nothing.
-/
import proofs.«170100_j17884243820955_1_alg».proof.Defs
import proofs.«170100_j17884243820955_1_alg».proof.Proof.Gen.Kernel
import proofs.«170100_j17884243820955_1_alg».proof.Proof.Gen.Kernel.Skeleton
import proofs.«170100_j17884243820955_1_alg».proof.Proof.Gen.Kernel.Launch
import proofs.«170100_j17884243820955_1_alg».proof.Proof.Gen.Kernel.Points
import proofs.«170100_j17884243820955_1_alg».proof.Proof.Gen.Kernel.Frame
import proofs.«170100_j17884243820955_1_alg».proof.Proof.Gen.KernelIdeal
import proofs.«170100_j17884243820955_1_alg».proof.Proof.Gen.KernelIdeal.Skeleton
import proofs.«170100_j17884243820955_1_alg».proof.Proof.Gen.KernelIdeal.Launch
import proofs.«170100_j17884243820955_1_alg».proof.Proof.Gen.KernelIdeal.Points
import proofs.«170100_j17884243820955_1_alg».proof.Proof.Gen.KernelIdeal.Frame
import proofs.«170100_j17884243820955_1_alg».proof.Proof.Gen.ReferenceIdeal
import proofs.«170100_j17884243820955_1_alg».proof.Proof.Gen.ReferenceIdeal.Run
import proofs.«170100_j17884243820955_1_alg».proof.Proof.Gen.ReferenceIdeal.Read
import proofs.«170100_j17884243820955_1_alg».proof.Proof.Gen.Pre_finite_inputs
import proofs.«170100_j17884243820955_1_alg».proof.Proof.KernelLoss
import proofs.«170100_j17884243820955_1_alg».proof.Proof.RefLoss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals the kernel ends with the loss of its arguments in its result and the reference with the loss
    of its own; the arguments agree, so the results are equal. -/
theorem algebraic : Cert.algebraic_KernelIdeal_ReferenceIdeal := by
  intro m ρ m' ρ' _ hagree
  refine ⟨fun c => Cert.CenterLoss.loss (Cert.KernelIdeal.Loss.emb m c) (Cert.KernelIdeal.Loss.lab m c) (Cert.KernelIdeal.Loss.cen m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v24_eq _ _ _).trans (Cert.ReferenceIdeal.Loss.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
